-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S16000x128 : Shape := ⟨2, ![16000, 128]⟩

abbrev nBuf : Space → Nat
  | .hbm => 3
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x128, .f32⟩
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S16000x128, .f32⟩
  | .local _ .vmem, ⟨4, _⟩ => ⟨S16000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16000x128_S16000x128_0_0 : ∀ a, (![0, 0] : Fin 2 → Nat) a + S16000x128.size a ≤ S16000x128.size a
  h_S16000x128 : 0 < S16000x128.numel
  inb_S128x128_S128x128_0_0 : ∀ a, (![0, 0] : Fin 2 → Nat) a + S128x128.size a ≤ S128x128.size a
  h_S128x128 : 0 < S128x128.numel
  dot_S16000x128_S128x128_S16000x128_1_1_0_0_n_n_wf : DotDims.WF S16000x128 S128x128 S16000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16000x128.size a < S100000x128.size a
  hwx0_0 : ∀ i : grid0.Coords, EltTy.bits .f32 = 32 ∨ (Rect.unit (s := S100000x128) (fun a => cc0_transform_0 i a * S16000x128.size a) (fun a => (Pipeline.Clip.of (cc0_transform_0 i a) (S16000x128.size a) (S100000x128.size a)).extent (S16000x128.size a)) fun a => Pipeline.Clip.inb (Pipeline.Clip.ok_of (hstart0_0 i a))).WholeWords (EltTy.packing .f32)
  hwxs0_0 : ∀ i : grid0.Coords, EltTy.bits .f32 = 32 ∨ (Rect.unit (s := S16000x128) (fun _ => 0) (fun a => (Pipeline.Clip.of (cc0_transform_0 i a) (S16000x128.size a) (S100000x128.size a)).extent (S16000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16000x128.size a < S100000x128.size a
  hwx0_2 : ∀ i : grid0.Coords, EltTy.bits .f32 = 32 ∨ (Rect.unit (s := S100000x128) (fun a => cc0_transform_2 i a * S16000x128.size a) (fun a => (Pipeline.Clip.of (cc0_transform_2 i a) (S16000x128.size a) (S100000x128.size a)).extent (S16000x128.size a)) fun a => Pipeline.Clip.inb (Pipeline.Clip.ok_of (hstart0_2 i a))).WholeWords (EltTy.packing .f32)
  hwxs0_2 : ∀ i : grid0.Coords, EltTy.bits .f32 = 32 ∨ (Rect.unit (s := S16000x128) (fun _ => 0) (fun a => (Pipeline.Clip.of (cc0_transform_2 i a) (S16000x128.size a) (S100000x128.size a)).extent (S16000x128.size a)) fun a => (Nat.zero_add _).trans_le (Pipeline.Clip.extent_le (Pipeline.Clip.ok_of (hstart0_2 i a)))).WholeWords (EltTy.packing .f32)

variable [Facts₀]

def dot_S16000x128_S128x128_S16000x128_1_1_0_0_n_n : DotDims S16000x128 S128x128 S16000x128 where
  lhsContracting := [1]
  rhsContracting := [1]
  lhsNonContracting := [0]
  rhsNonContracting := [0]
  lhsBatch := []
  rhsBatch := []
  wf := dot_S16000x128_S128x128_S16000x128_1_1_0_0_n_n_wf

abbrev win0_0 : Pipeline.Window sig grid0 :=
  Pipeline.Window.ofSpecClip (Memref.whole main_arg0) S16000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16000x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x128_S128x128_1_0 : S128x128.Transposes [1, 0] S128x128
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsBody.lean ====
/-
  The kernel body as a triple, at any float instance.

  At a grid point the body is handed three staging buffers: the row block of `x` (16000 × 128), the whole of `W`
  (128 × 128) and the result's row block (16000 × 128). It loads the first two whole, multiplies the row block by
  `W` contracted over the second axis of both (`y[r, j] = Σ_k x[r, k] · W[j, k]`, into a zero accumulator), loads
  the result's buffer (a value nothing reads) and stores the product over the whole of it. So it ends with the two
  input buffers as it found them and the result's buffer holding the product of what they held — whatever they
  held: the statement quantifies over all three contents, which is what lets it serve at the array's last row
  block, where the rows of the `x` buffer past the array's end hold values nothing names.
-/
import proofs.«156530_g87866440942142_cont_sun_m_626_18_alg».proof.Proof.Gen.Kernel.Frame
import proofs.«156530_g87866440942142_cont_sun_m_626_18_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body runs under no variant. -/
abbrev 𝒱₀ : Variants := Variants.none

/-- The rank-2 origin, as the program spells it, is the zero offset. -/
theorem origin_eq : (![0, 0] : Fin 2 → Nat) = fun _ => 0 := funext fun a => by fin_cases a <;> rfl

/-- Every index of a shape lies in the shape's own rectangle at the zero offset. -/
theorem mem_unit_zero {S : Shape} {off : Fin S.rank → Nat} (h : off = fun _ => 0) (inb : ∀ a, off a + S.size a ≤ S.size a)
    (y : S.Idx) : y ∈ (Rect.unit off S.size inb).set := by
  subst h; rw [Rect.mem_set_unit]; intro a; exact ⟨Nat.zero_le _, by simpa using (y a).isLt⟩

/-- One store through the whole shape, over any earlier contents, reads back as its payload. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton.mpr rfl, mem_unit_zero h inb y⟩),
    View.canon_unit_zero h]

/-- The body's triple: from the three staging buffers at any contents `X0`, `X1`, `X2` it ends with the first two
    unchanged and the third at the block product `k0_pay1 X0 X1`. -/
theorem sound_body (c : Dev nD) (E : Set ℕ) (i : grid0.Coords) (s0 : Fin 2) (s1 : Fin 1) (s2 : Fin 2)
    (X0 X2 : S16000x128.Idx → Elt F .f32) (X1 : S128x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__linear_kernel i (stage0_0 s0) (hstage0_0 s0) (stage0_1 s1) (hstage0_1 s1) (stage0_2 s2) (hstage0_2 s2)) K := by
  simp only [cc0__linear_kernel_eq_skeleton]; unfold cc0__linear_kernel_skel
  unfold owns
  iintro ⟨⟨⟨%f0, %hf0, H0⟩, ⟨%f1, %hf1, H1⟩, ⟨%f2, %hf2, H2⟩⟩, Hk⟩
  sl_exec
  sl_step
  iapply Hk
  isplitl [H0]
  · iexists f0; isplitr
    · ipureintro; exact hf0
    · iexact H0
  isplitl [H1]
  · iexists f1; isplitr
    · ipureintro; exact hf1
    · iexact H1
  · iexists _; isplitr
    swap
    · iexact H2
    · ipureintro
      -- the one store covers the buffer, so the buffer reads as its payload; the two loads read the whole contents
      refine (read_store_whole _ _ origin_eq _ _).trans ?_
      rw [View.readAt_eq_ld, View.readAt_eq_ld, View.ld_unit_zero origin_eq, View.ld_unit_zero origin_eq, hf0, hf1]

end Cert.Kernel.Hand

end
-- ==== Proof.BitsFrame.lean ====
/-
  The frame of the kernel, at any float instance: it runs to the end, faults nowhere, and leaves `x` and `W` as
  they were.

  Nothing here says what the result array holds. At the word-level instance the matrix product is a function of
  its whole left operand, and at the last row block that operand's rows past the array's end hold values nothing
  names, so there the block product cannot be named either. The frame does not need it: the proof data forget all
  three staging windows — each is handed to the body at some contents and taken back at some contents, which is
  all the body's triple asks and all it gives — and an argument array that is only ever fetched ends the run at
  its entry contents whatever the buffers held.
-/
import proofs.«156530_g87866440942142_cont_sun_m_626_18_alg».proof.Proof.BitsBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
abbrev forgetAll : Fin cfg0.W → Bool := fun _ => true

/-- The proof data: the arrays as the region finds them; the staging contents after the body left unnamed (no
    statement reads them); the class invariant; full shares; nothing owed. -/
def frameDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The body obligation with every window forgotten: the three buffers arrive at some contents, the body's triple
    runs from any contents, and they leave at some contents. -/
theorem frame_obligation (c : Dev nD) :
    BodyObligationLoose (frameDats m 0 c) (defs₀ (F := F)) 𝒱₀ () Set.univ forgetAll := fun t => by
  rw [bigSep_W0]
  simp only
  rw [show (frameDats m 0 c).Φ t.succ = (frameDats m 0 c).Φ t.castSucc from rfl,
    show (frameDats m 0 c).owesAt () t.succ = (frameDats m 0 c).owesAt () t.castSucc from rfl]
  iintro ⟨HΦ, Ho, ⟨%X0, H0⟩, ⟨%X1, H1⟩, ⟨%X2, H2⟩⟩
  iapply (sound_body (F := F) c Set.univ (grid0.coords t) (cfg0.slots t 0) (cfg0.slots t 1) (cfg0.slots t 2) X0 X2 X1 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists X0; iexact H0
  isplitl [H1]
  · iexists X1; iexact H1
  · iexists _; iexact H2

/-- The run: every weakly fair execution of @main terminates without a fault, each array ending at some contents
    the forgotten windows allow and every other unscoped buffer as it was. -/
theorem frame_run :
    θ_run defs (onTc (τ := τ) (main (F := F))) (s₀ m ρ)
      (RDat.FramePost cfg0 (fun c => (frameDats m 0 c).toRForget forgetAll) (V m)) :=
  RDat.θ_run_frame cfgs 0 launch0 defs₀ 𝒱₀ (fun c => (frameDats m 0 c).toRForget forgetAll) m ρ main
    (hbody := fun c => (frame_obligation m c).toRForget)
    (hshare := fun c w => (frameDats m 0 c).share_full (fun _ => rfl) w) (howed := fun _ _ => rfl)
    (V := V m) (hmain := hmain m 𝒱₀) (hA := fun _ _ => rfl) (hΦ := fun _ _ => rfl)

/-- The frame claim's post: the two argument arrays are input windows, so each ends at its entry contents. -/
theorem frame_post :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.arr_in c 0 rfl, h.arr_in c 1 rfl⟩) (frame_run m ρ)

end Cert.Kernel.Hand

end
-- ==== Proof.IdealBody.lean ====
/-
  The kernel body as a triple, at any float instance.

  At a grid point the body is handed three staging buffers: the row block of `x` (16000 × 128), the whole of `W`
  (128 × 128) and the result's row block (16000 × 128). It loads the first two whole, multiplies the row block by
  `W` contracted over the second axis of both (`y[r, j] = Σ_k x[r, k] · W[j, k]`, into a zero accumulator), loads
  the result's buffer (a value nothing reads) and stores the product over the whole of it. So it ends with the two
  input buffers as it found them and the result's buffer holding the product of what they held — whatever they
  held: the statement quantifies over all three contents, which is what lets it serve at the array's last row
  block, where the rows of the `x` buffer past the array's end hold values nothing names.
-/
import proofs.«156530_g87866440942142_cont_sun_m_626_18_alg».proof.Proof.Gen.KernelIdeal.Frame
import proofs.«156530_g87866440942142_cont_sun_m_626_18_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body runs under no variant. -/
abbrev 𝒱₀ : Variants := Variants.none

/-- The rank-2 origin, as the program spells it, is the zero offset. -/
theorem origin_eq : (![0, 0] : Fin 2 → Nat) = fun _ => 0 := funext fun a => by fin_cases a <;> rfl

/-- Every index of a shape lies in the shape's own rectangle at the zero offset. -/
theorem mem_unit_zero {S : Shape} {off : Fin S.rank → Nat} (h : off = fun _ => 0) (inb : ∀ a, off a + S.size a ≤ S.size a)
    (y : S.Idx) : y ∈ (Rect.unit off S.size inb).set := by
  subst h; rw [Rect.mem_set_unit]; intro a; exact ⟨Nat.zero_le _, by simpa using (y a).isLt⟩

/-- One store through the whole shape, over any earlier contents, reads back as its payload. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton.mpr rfl, mem_unit_zero h inb y⟩),
    View.canon_unit_zero h]

/-- The body's triple: from the three staging buffers at any contents `X0`, `X1`, `X2` it ends with the first two
    unchanged and the third at the block product `k0_pay1 X0 X1`. -/
theorem sound_body (c : Dev nD) (E : Set ℕ) (i : grid0.Coords) (s0 : Fin 2) (s1 : Fin 1) (s2 : Fin 2)
    (X0 X2 : S16000x128.Idx → Elt F .f32) (X1 : S128x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__linear_kernel i (stage0_0 s0) (hstage0_0 s0) (stage0_1 s1) (hstage0_1 s1) (stage0_2 s2) (hstage0_2 s2)) K := by
  simp only [cc0__linear_kernel_eq_skeleton]; unfold cc0__linear_kernel_skel
  unfold owns
  iintro ⟨⟨⟨%f0, %hf0, H0⟩, ⟨%f1, %hf1, H1⟩, ⟨%f2, %hf2, H2⟩⟩, Hk⟩
  sl_exec
  sl_step
  iapply Hk
  isplitl [H0]
  · iexists f0; isplitr
    · ipureintro; exact hf0
    · iexact H0
  isplitl [H1]
  · iexists f1; isplitr
    · ipureintro; exact hf1
    · iexact H1
  · iexists _; isplitr
    swap
    · iexact H2
    · ipureintro
      -- the one store covers the buffer, so the buffer reads as its payload; the two loads read the whole contents
      refine (read_store_whole _ _ origin_eq _ _).trans ?_
      rw [View.readAt_eq_ld, View.readAt_eq_ld, View.ld_unit_zero origin_eq, View.ld_unit_zero origin_eq, hf0, hf1]

end Cert.KernelIdeal.Hand

end
-- ==== Proof.IdealFrame.lean ====
/-
  The frame of the kernel, at any float instance: it runs to the end, faults nowhere, and leaves `x` and `W` as
  they were.

  Nothing here says what the result array holds. At the word-level instance the matrix product is a function of
  its whole left operand, and at the last row block that operand's rows past the array's end hold values nothing
  names, so there the block product cannot be named either. The frame does not need it: the proof data forget all
  three staging windows — each is handed to the body at some contents and taken back at some contents, which is
  all the body's triple asks and all it gives — and an argument array that is only ever fetched ends the run at
  its entry contents whatever the buffers held.
-/
import proofs.«156530_g87866440942142_cont_sun_m_626_18_alg».proof.Proof.IdealBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
abbrev forgetAll : Fin cfg0.W → Bool := fun _ => true

/-- The proof data: the arrays as the region finds them; the staging contents after the body left unnamed (no
    statement reads them); the class invariant; full shares; nothing owed. -/
def frameDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The body obligation with every window forgotten: the three buffers arrive at some contents, the body's triple
    runs from any contents, and they leave at some contents. -/
theorem frame_obligation (c : Dev nD) :
    BodyObligationLoose (frameDats m 0 c) (defs₀ (F := F)) 𝒱₀ () Set.univ forgetAll := fun t => by
  rw [bigSep_W0]
  simp only
  rw [show (frameDats m 0 c).Φ t.succ = (frameDats m 0 c).Φ t.castSucc from rfl,
    show (frameDats m 0 c).owesAt () t.succ = (frameDats m 0 c).owesAt () t.castSucc from rfl]
  iintro ⟨HΦ, Ho, ⟨%X0, H0⟩, ⟨%X1, H1⟩, ⟨%X2, H2⟩⟩
  iapply (sound_body (F := F) c Set.univ (grid0.coords t) (cfg0.slots t 0) (cfg0.slots t 1) (cfg0.slots t 2) X0 X2 X1 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists X0; iexact H0
  isplitl [H1]
  · iexists X1; iexact H1
  · iexists _; iexact H2

/-- The run: every weakly fair execution of @main terminates without a fault, each array ending at some contents
    the forgotten windows allow and every other unscoped buffer as it was. -/
theorem frame_run :
    θ_run defs (onTc (τ := τ) (main (F := F))) (s₀ m ρ)
      (RDat.FramePost cfg0 (fun c => (frameDats m 0 c).toRForget forgetAll) (V m)) :=
  RDat.θ_run_frame cfgs 0 launch0 defs₀ 𝒱₀ (fun c => (frameDats m 0 c).toRForget forgetAll) m ρ main
    (hbody := fun c => (frame_obligation m c).toRForget)
    (hshare := fun c w => (frameDats m 0 c).share_full (fun _ => rfl) w) (howed := fun _ _ => rfl)
    (V := V m) (hmain := hmain m 𝒱₀) (hA := fun _ _ => rfl) (hΦ := fun _ _ => rfl)

/-- The frame claim's post: the two argument arrays are input windows, so each ends at its entry contents. -/
theorem frame_post :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.arr_in c 0 rfl, h.arr_in c 1 rfl⟩) (frame_run m ρ)

end Cert.KernelIdeal.Hand

end
-- ==== Proof.IdealPayload.lean ====
/-
  The block product at an index, at the ideal instance.

  The body's one computed value is the product of a 16000 × 128 row block `X` with the 128 × 128 weight block
  `Wb`, both contracted over their second axis, into a zero accumulator. Over the extended reals that is, at
  entry `(r, j)`, the plain sum `Σ_k X[r, k] · Wb[j, k]`: the zero accumulator adds nothing and there is no
  rounding and no chunk order. The contraction index has one axis of extent 128; it is re-indexed by `Fin 128`, and
  the operand indices the dot's dimension numbers compute are identified coordinate by coordinate: the left
  operand is read at `(r, k)` — the output's row and the contraction position — and the right at `(j, k)`.
-/
import proofs.«156530_g87866440942142_cont_sun_m_626_18_alg».proof.Proof.Gen.KernelIdeal.Skeleton
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The left operand's row is the output's row. -/
theorem lhs_row (i : S16000x128.Idx) (q : dot_S16000x128_S128x128_S16000x128_1_1_0_0_n_n.contr.Idx) :
    (dot_S16000x128_S128x128_S16000x128_1_1_0_0_n_n.lhsIdx i q 0).val = (i 0).val := by
  unfold DotDims.lhsIdx
  rw [dif_neg (show ¬(0 : Fin S16000x128.rank) ∈ dot_S16000x128_S128x128_S16000x128_1_1_0_0_n_n.lhsBatch by decide),
    dif_pos (show (0 : Fin S16000x128.rank) ∈ dot_S16000x128_S128x128_S16000x128_1_1_0_0_n_n.lhsNonContracting by decide)]
  rfl
/-- The left operand's column is the contraction position. -/
theorem lhs_col (i : S16000x128.Idx) (q : dot_S16000x128_S128x128_S16000x128_1_1_0_0_n_n.contr.Idx) :
    (dot_S16000x128_S128x128_S16000x128_1_1_0_0_n_n.lhsIdx i q 1).val = (q ⟨0, by decide⟩).val :=
  dot_S16000x128_S128x128_S16000x128_1_1_0_0_n_n.lhsIdx_val_of_single rfl i q
/-- The right operand's row is the output's column. -/
theorem rhs_row (i : S16000x128.Idx) (q : dot_S16000x128_S128x128_S16000x128_1_1_0_0_n_n.contr.Idx) :
    (dot_S16000x128_S128x128_S16000x128_1_1_0_0_n_n.rhsIdx i q 0).val = (i 1).val := by
  unfold DotDims.rhsIdx
  rw [dif_neg (show ¬(0 : Fin S128x128.rank) ∈ dot_S16000x128_S128x128_S16000x128_1_1_0_0_n_n.rhsBatch by decide),
    dif_pos (show (0 : Fin S128x128.rank) ∈ dot_S16000x128_S128x128_S16000x128_1_1_0_0_n_n.rhsNonContracting by decide)]
  rfl
/-- The right operand's column is the contraction position. -/
theorem rhs_col (i : S16000x128.Idx) (q : dot_S16000x128_S128x128_S16000x128_1_1_0_0_n_n.contr.Idx) :
    (dot_S16000x128_S128x128_S16000x128_1_1_0_0_n_n.rhsIdx i q 1).val = (q ⟨0, by decide⟩).val :=
  dot_S16000x128_S128x128_S16000x128_1_1_0_0_n_n.rhsIdx_val_of_single rfl i q

/-- Entry `(r, j)` of the block product is `Σ_k X[r, k] · Wb[j, k]`. -/
theorem payload_apply (X : Vec Ideal S16000x128 .f32) (Wb : Vec Ideal S128x128 .f32) (r : Fin 16000) (j : Fin 128) :
    k0_pay1 (F := Ideal) X Wb (ix2 r j) = ∑ k : Fin 128, X (ix2 r k) * Wb (ix2 j k) := by
  unfold k0_pay1
  simp only [matmul]
  rw [Ideal.matmul_constant_zero_apply,
    ← Equiv.sum_comp (contrEquiv1 dot_S16000x128_S128x128_S16000x128_1_1_0_0_n_n 128 rfl rfl).symm]
  refine Finset.sum_congr rfl fun k _ => ?_
  have hk := contrEquiv1_symm_val dot_S16000x128_S128x128_S16000x128_1_1_0_0_n_n 128 rfl rfl k
  have el : dot_S16000x128_S128x128_S16000x128_1_1_0_0_n_n.lhsIdx (ix2 r j)
      ((contrEquiv1 dot_S16000x128_S128x128_S16000x128_1_1_0_0_n_n 128 rfl rfl).symm k) = ix2 r k :=
    funext fun a => Fin.ext (by
      match a with
      | ⟨0, _⟩ => exact lhs_row _ _
      | ⟨1, _⟩ => exact (lhs_col _ _).trans hk)
  have er : dot_S16000x128_S128x128_S16000x128_1_1_0_0_n_n.rhsIdx (ix2 r j)
      ((contrEquiv1 dot_S16000x128_S128x128_S16000x128_1_1_0_0_n_n 128 rfl rfl).symm k) = ix2 j k :=
    funext fun a => Fin.ext (by
      match a with
      | ⟨0, _⟩ => exact rhs_row _ _
      | ⟨1, _⟩ => exact (rhs_col _ _).trans hk)
  rw [el, er]

end Cert.KernelIdeal.Hand

end
-- ==== Proof.Spec.lean ====
/-
  The specification both programs meet: the bias-free linear layer `y = x · Wᵀ`.

  For `x` of 100000 rows and 128 columns and a weight matrix `W` of 128 rows (one per output feature) and 128
  columns (one per input feature), entry `(r, j)` of the result is the dot product of row `r` of `x` with row `j`
  of `W`: `y[r, j] = Σ_k x[r, k] · W[j, k]`, a sum of 128 products of extended reals. Entry `(r, j)` reads row `r`
  of `x` and no other row — which is why a row block of the result is determined by the same row block of `x`,
  and why rows of a staging buffer that lie past the array's end never reach a row that is kept.
-/
import Idealize.ShloMosaic.PureOps.Ideal
import Idealize.ShloMosaic.Lib.ValueIdx

noncomputable section

open scoped BigOperators

namespace Cert.Spec

open Idealize.ShloMosaic Idealize.ShloMosaic.ValueIdx

/-- The shape of `x` and of the result: 100000 rows of 128. -/
abbrev Rows : Shape := ⟨2, ![100000, 128]⟩
/-- The shape of the weight matrix: 128 output features by 128 input features. -/
abbrev Square : Shape := ⟨2, ![128, 128]⟩

/-- `y[r, j] = Σ_k x[r, k] · W[j, k]`. -/
def linear (x : FVec Ideal Rows .f32) (W : FVec Ideal Square .f32) : FVec Ideal Rows .f32 :=
  fun i => ∑ k : Fin 128, x (ix2 (i 0) k) * W (ix2 (i 1) k)

theorem linear_apply (x : FVec Ideal Rows .f32) (W : FVec Ideal Square .f32) (r : Fin 100000) (j : Fin 128) :
    linear x W (ix2 r j) = ∑ k : Fin 128, x (ix2 r k) * W (ix2 j k) := rfl

end Cert.Spec

end
-- ==== Proof.IdealValue.lean ====
/-
  The idealized kernel computes the linear layer.

  The grid has seven points; point `t` works on rows `16000·t … 16000·t + 15999` of `x` and of the result, and the
  array has 100000 rows, so the last point's block overhangs the array by 12000 rows: its fetch lands the array's
  rows 96000 … 99999 in the first 4000 rows of the staging buffer and leaves the other rows at values nothing names,
  and its write-back writes only the first 4000 rows of the result's buffer. `W`'s one block is the whole of `W`.

  What the body leaves in the result's buffer is the block product of what it found (the body's triple). Entry
  `(r, j)` of that product is `Σ_k X[r, k] · W[j, k]` (the payload at an index), which reads row `r` of the `x`
  buffer only; for a row that the write-back keeps, that row was fetched from the array — it is row `16000·t + r`
  of `x` — so the kept entry is the linear layer's entry `(16000·t + r, j)`, whatever the unnamed rows hold
  (`kept_rows`). So each point writes back the corresponding rows of `linear x W`; the seven blocks cover the
  array's 100000 rows; the result array ends holding `linear x W` (`final_result`).
-/
import proofs.«156530_g87866440942142_cont_sun_m_626_18_alg».proof.Proof.IdealBody
import proofs.«156530_g87866440942142_cont_sun_m_626_18_alg».proof.Proof.IdealPayload
import proofs.«156530_g87866440942142_cont_sun_m_626_18_alg».proof.Proof.Spec
import Idealize.ShloMosaic.Lib.Pipeline.Frame
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The grid's arithmetic, decided over its seven points -/

/-- Point `t`'s block of `x` is block `t` of the rows, the only block of the columns; -/
theorem index_x : ∀ t : Fin cfg0.N, win0_0.index t 0 = t.val ∧ win0_0.index t 1 = 0 :=
  (by decide +kernel : ∀ t : Fin grid0.N, win0_0.index t 0 = t.val ∧ win0_0.index t 1 = 0)
/-- `W`'s is always its one block; -/
theorem index_w : ∀ t : Fin cfg0.N, win0_1.index t 0 = 0 ∧ win0_1.index t 1 = 0 :=
  (by decide +kernel : ∀ t : Fin grid0.N, win0_1.index t 0 = 0 ∧ win0_1.index t 1 = 0)
/-- the result's is block `t` of the rows. -/
theorem index_y : ∀ t : Fin cfg0.N, win0_2.index t 0 = t.val ∧ win0_2.index t 1 = 0 :=
  (by decide +kernel : ∀ t : Fin grid0.N, win0_2.index t 0 = t.val ∧ win0_2.index t 1 = 0)
/-- The rows point `t`'s transfer of `x` moves end where the block ends or where the array ends, whichever is first;
    all 128 columns are moved. -/
theorem extent_x : ∀ t : Fin cfg0.N, t.val * 16000 + win0_0.xsize (grid0.coords t) 0 = min ((t.val + 1) * 16000) 100000
    ∧ win0_0.xsize (grid0.coords t) 1 = 128 :=
  (by decide +kernel : ∀ t : Fin grid0.N, t.val * 16000 + win0_0.xsize (grid0.coords t) 0 = min ((t.val + 1) * 16000) 100000
    ∧ win0_0.xsize (grid0.coords t) 1 = 128)
/-- The result's transfers are cut the same way. -/
theorem extent_y : ∀ t : Fin cfg0.N, t.val * 16000 + win0_2.xsize (grid0.coords t) 0 = min ((t.val + 1) * 16000) 100000
    ∧ win0_2.xsize (grid0.coords t) 1 = 128 :=
  (by decide +kernel : ∀ t : Fin grid0.N, t.val * 16000 + win0_2.xsize (grid0.coords t) 0 = min ((t.val + 1) * 16000) 100000
    ∧ win0_2.xsize (grid0.coords t) 1 = 128)

/-! ## The arrays and the blocks -/

/-- `x` and `W` as the region finds them on core `c`, and the linear layer of them: what the result is shown to be. -/
abbrev xarr (c : Dev nD) : FVec Ideal S100000x128 .f32 := V m c main_arg0
abbrev warr (c : Dev nD) : FVec Ideal S128x128 .f32 := V m c main_arg1
abbrev result (c : Dev nD) : FVec Ideal S100000x128 .f32 := Cert.Spec.linear (xarr m c) (warr m c)

/-- Entry `y` of the part of `x`'s block that point `t`'s fetch moves is the array's entry at row `16000·t + y₀`. -/
theorem xblock_apply (c : Dev nD) (t : Fin cfg0.N) (y : (win0_0.xblock (grid0.coords t)).Idx) (i : S100000x128.Idx)
    (h0 : (i 0).val = t.val * 16000 + (y 0).val) (h1 : (i 1).val = (y 1).val) :
    iblk m c 0 t y = xarr m c i := by
  unfold iblk
  rw [View.read_apply]
  show V m c main_arg0 (((cfg0.win 0).blk t).view.emb y) = V m c main_arg0 i
  refine congrArg _ (funext fun a => Fin.ext ?_)
  match a with
  | ⟨0, _⟩ =>
    show win0_0.index t 0 * 16000 + 1 * (y 0).val = (i 0).val
    rw [(index_x t).1]; omega
  | ⟨1, _⟩ =>
    show win0_0.index t 1 * 128 + 1 * (y 1).val = (i 1).val
    rw [(index_x t).2]; omega

/-- `W`'s block at any point is `W`. -/
theorem wblock_apply (c : Dev nD) (t : Fin cfg0.N) (y : S128x128.Idx) : iblk m c 1 t y = warr m c y := by
  unfold iblk
  rw [View.read_apply]
  show V m c main_arg1 (((cfg0.win 1).blk t).view.emb y) = V m c main_arg1 y
  refine congrArg _ (funext fun a => Fin.ext ?_)
  match a with
  | ⟨0, _⟩ =>
    show win0_1.index t 0 * 128 + 1 * (y 0).val = (y 0).val
    rw [(index_w t).1]; omega
  | ⟨1, _⟩ =>
    show win0_1.index t 1 * 128 + 1 * (y 1).val = (y 1).val
    rw [(index_w t).2]; omega

/-- Entry `y` of the part of the result's block that point `t`'s write-back moves lies at row `16000·t + y₀`. -/
theorem yblock_apply (t : Fin cfg0.N) (G : FVec Ideal S100000x128 .f32) (y : (win0_2.xblock (grid0.coords t)).Idx)
    (i : S100000x128.Idx) (h0 : (i 0).val = t.val * 16000 + (y 0).val) (h1 : (i 1).val = (y 1).val) :
    (win0_2.blk t).view.read (Elt Ideal) G y = G i := by
  rw [View.read_apply]
  show G (((cfg0.win 2).blk t).view.emb y) = G i
  refine congrArg _ (funext fun a => Fin.ext ?_)
  match a with
  | ⟨0, _⟩ =>
    show win0_2.index t 0 * 16000 + 1 * (y 0).val = (i 0).val
    rw [(index_y t).1]; omega
  | ⟨1, _⟩ =>
    show win0_2.index t 1 * 128 + 1 * (y 1).val = (i 1).val
    rw [(index_y t).2]; omega

/-! ## A kept row of the block product -/

/-- Where point `t`'s fetch moved the entry, `x`'s staging buffer holds the array's entry, whatever fills the rest. -/
theorem filled_apply (c : Dev nD) (t : Fin cfg0.N) (d0 : S16000x128.Idx → Elt Ideal .f32) (r : Fin 16000) (k : Fin 128)
    (hr : r.val < win0_0.xsize (grid0.coords t) 0) (i : S100000x128.Idx)
    (h0 : (i 0).val = t.val * 16000 + r.val) (h1 : (i 1).val = k.val) :
    win0_0.fill (grid0.coords t) d0 (iblk m c 0 t) (ix2 r k) = xarr m c i := by
  have hmv : win0_0.moved (grid0.coords t) (ix2 r k) = true :=
    (win0_0.moved_iff _ _).mpr fun a => by
      match a with
      | ⟨0, _⟩ => exact hr
      | ⟨1, _⟩ =>
        show k.val < win0_0.xsize (grid0.coords t) 1
        rw [(extent_x t).2]; exact k.isLt
  unfold Window.fill
  rw [dif_pos hmv]
  exact xblock_apply m c t _ i h0 h1

/-- The rows of the block product that point `t`'s write-back keeps are the linear layer's rows `16000·t …`, whatever
    `x`'s staging buffer holds past the rows its fetch moved. -/
theorem kept_rows (c : Dev nD) (t : Fin cfg0.N) (d0 : S16000x128.Idx → Elt Ideal .f32) :
    win0_2.cut (grid0.coords t) (k0_pay1 (F := Ideal) (win0_0.fill (grid0.coords t) d0 (iblk m c 0 t)) (iblk m c 1 t))
      = (win0_2.blk t).view.read (Elt Ideal) (result m c) := by
  funext j
  have hj0 : (j 0).val < win0_2.xsize (grid0.coords t) 0 := (j 0).isLt
  have hj1 : (j 1).val < win0_2.xsize (grid0.coords t) 1 := (j 1).isLt
  have ex := extent_x t
  have ey := extent_y t
  have hr : (j 0).val < 16000 := by omega
  have hq : (j 1).val < 128 := by omega
  have hrow : t.val * 16000 + (j 0).val < 100000 := by omega
  have hx0 : (j 0).val < win0_0.xsize (grid0.coords t) 0 := by omega
  show k0_pay1 (F := Ideal) _ _ (win0_2.xinj (grid0.coords t) j) = _
  rw [show win0_2.xinj (grid0.coords t) j = ix2 (⟨(j 0).val, hr⟩ : Fin 16000) (⟨(j 1).val, hq⟩ : Fin 128) from
      funext fun a => by match a with | ⟨0, _⟩ => rfl | ⟨1, _⟩ => rfl,
    payload_apply,
    yblock_apply t (result m c) j (ix2 (⟨t.val * 16000 + (j 0).val, hrow⟩ : Fin 100000) (⟨(j 1).val, hq⟩ : Fin 128)) rfl rfl]
  show _ = Cert.Spec.linear (xarr m c) (warr m c) (ix2 _ _)
  rw [Cert.Spec.linear_apply]
  refine Finset.sum_congr rfl fun k _ => ?_
  rw [filled_apply m c t d0 ⟨(j 0).val, hr⟩ k hx0 (ix2 (⟨t.val * 16000 + (j 0).val, hrow⟩ : Fin 100000) k) rfl rfl, wblock_apply]

/-! ## The proof data and the body obligation -/

/-- The proof data on core `c`: the arrays as the region finds them; after the body, `x`'s buffer at its block (zero
    past the moved rows, which no statement reads), `W`'s at `W`, the result's at the block of `linear x W` (zero
    past the moved rows likewise); the class invariant; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ _ := Pipeline.ΦA spec0 c
  q _ := fullShare
  owed _ := 0

/-- `x` is fetched at every point: the body finds the block on the moved rows and anything (`d`) elsewhere. -/
theorem before_x (c : Dev nD) (t : Fin cfg0.N) (d) :
    (dats m 0 c).before (0 : Fin 3) t d = win0_0.fill (grid0.coords t) d (iblk m c 0 t) := by
  unfold Dat.before; rw [if_pos (fetch0_0 t)]; rfl

/-- `W`'s buffer holds `W`'s block at every point, fetched there or kept from the point before. -/
theorem before_w (c : Dev nD) (t : Fin cfg0.N) (d) : (dats m 0 c).before (1 : Fin 3) t d = iblk m c 1 t :=
  before0_1_of m (dats m 0 c) rfl (fun _ => rfl) t d

/-- The body obligation: from the buffers as the pipeline hands them over, the body's triple leaves `x`'s and `W`'s
    as they were and the result's at the block product, whose kept rows are those of `linear x W` (`kept_rows`) —
    all the obligation states of a window whose last block is cut. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_x m c t d0, before_w m c t d1]
  iapply (sound_body (F := Ideal) c Set.univ (grid0.coords t) (cfg0.slots t 0) (cfg0.slots t 1) (cfg0.slots t 2)
    (win0_0.fill (grid0.coords t) d0 (iblk m c 0 t)) ((dats m 0 c).before 2 t d2) (iblk m c 1 t) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  dsimp only [dats]
  isplitl [H0]
  · iexists d0
    rw [Window.cut_fill]; iexact H0
  isplitl [H1]
  · iexact H1
  · iexists k0_pay1 (F := Ideal) (win0_0.fill (grid0.coords t) d0 (iblk m c 0 t)) (iblk m c 1 t)
    rw [Window.cut_fill, ← kept_rows m c t d0, Window.fill_cut]; iexact H2

/-! ## The run and the result array -/

/-- The run: every weakly fair execution of @main terminates without a fault, with every array of the kernel at what
    the proof data compute and every other unscoped buffer as it was. -/
theorem run_main : θ_run defs (onTc (τ := τ) (main (F := Ideal))) (s₀ m ρ) (Pipeline.FramePost cfgs (dats m) 0 (V m)) :=
  Pipeline.θ_run_frame cfgs (dats m) 0 launch0 defs₀ 𝒱₀ m ρ main
    (hbody := body_obligation m)
    (hshare := fun c w => (dats m 0 c).share_full (fun _ => rfl) w) (howed := fun _ _ => rfl)
    (V := V m) (hmain := hmain m 𝒱₀) (hA := fun _ _ => rfl) (hΦ := fun _ _ => rfl)

/-- What point `t` writes back is the block of `linear x W` there. -/
theorem flushed_eq (c : Dev nD) (t : Fin cfg0.N) :
    (dats m 0 c).flushed (2 : Fin 3) t = (win0_2.blk t).view.read (Elt Ideal) (result m c) := by
  unfold Dat.flushed
  dsimp only [dats]
  exact Window.cut_fill _ _ _ _

/-- Row `r` of the result lies in the block of point `r / 16000`, on the rows that point's write-back moves. -/
theorem covered (i : S100000x128.Idx) :
    ∃ t : Fin cfg0.N, (cfg0.win 2).flush t = true ∧ i ∈ ((cfg0.win 2).blk t).view.set := by
  have hi : (i 0).val < 100000 := (i 0).isLt
  have hi1 : (i 1).val < 128 := (i 1).isLt
  have hN : cfg0.N = 7 := N_0
  have ht : (i 0).val / 16000 < cfg0.N := by rw [hN]; omega
  obtain ⟨t, htv⟩ : ∃ t : Fin cfg0.N, t.val = (i 0).val / 16000 := ⟨⟨_, ht⟩, rfl⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 16000 ≤ (i 0).val ∧ (i 0).val < win0_2.index t 0 * 16000 + win0_2.xsize (grid0.coords t) 0
    have e := (extent_y t).1
    rw [(index_y t).1]
    omega
  | ⟨1, _⟩ =>
    show win0_2.index t 1 * 128 ≤ (i 1).val ∧ (i 1).val < win0_2.index t 1 * 128 + win0_2.xsize (grid0.coords t) 1
    rw [(index_y t).2, (extent_y t).2]
    omega

/-- The result array ends holding the linear layer of `x` and `W`. -/
theorem final_result (c : Dev nD) : (dats m 0 c).arrAt (2 : Fin 3) cfg0.N = result m c :=
  (dats m 0 c).arrAt_eq_of_cover (2 : Fin 3) (result m c) (fun t _ => flushed_eq m c t) covered

/-- The run as the claims state it: the result array ends at `linear x W`, and `x` and `W` are input windows, so they
    end at their entry contents. -/
theorem value_run :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_result m c),
      ((h c).1 0).trans (((dats m 0 c).arrAt_in 0 rfl _).trans (V_main_arg0 m c)),
      ((h c).1 1).trans (((dats m 0 c).arrAt_in 1 rfl _).trans (V_main_arg1 m c))⟩) (run_main m ρ)

end Cert.KernelIdeal.Hand

end
-- ==== Proof.RefValue.lean ====
/-
  The reference computes the linear layer.

  The reference transposes `W` and contracts the second axis of `x` with the first axis of `Wᵀ`:
  `y[r, j] = Σ_k x[r, k] · Wᵀ[k, j]`, and `Wᵀ[k, j] = W[j, k]`. Read at an index (the run's term one operation at
  a time, from the imported generated modules) this is the specification's sum `Σ_k x[r, k] · W[j, k]` term by term.
-/
import proofs.«156530_g87866440942142_cont_sun_m_626_18_alg».proof.Proof.Gen.ReferenceIdeal.Read
import proofs.«156530_g87866440942142_cont_sun_m_626_18_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The left operand's index of the contraction at `k` is `(r, k)`. -/
theorem left_index (i : S100000x128.Idx) (k : Fin 128) : lidx_main_v1 i k = ix2 (i 0) k :=
  funext fun a => Fin.ext (by match a with | ⟨0, _⟩ => rfl | ⟨1, _⟩ => rfl)

/-- The right operand's index `(k, j)`, read through the transpose, is `(j, k)`. -/
theorem right_index (i : S100000x128.Idx) (k : Fin 128) : idx_main_v0 (ridx_main_v1 i k) = ix2 (i 1) k :=
  funext fun a => Fin.ext (by match a with | ⟨0, _⟩ => rfl | ⟨1, _⟩ => rfl)

/-- The reference's result term is the linear layer of its two arguments. -/
theorem reference_eq (x : FVec Ideal S100000x128 .f32) (W : FVec Ideal S128x128 .f32) :
    Host.dotGeneral dot_S100000x128_S128x128_S100000x128_1_0_0_1_n_n none x (transpose S128x128 [1, 0] W transposes_S128x128_S128x128_1_0)
      = Cert.Spec.linear x W := by
  rw [val_main_v1_eq]
  funext i
  rw [val_main_v1_apply]
  unfold Cert.Spec.linear
  refine Finset.sum_congr rfl fun k _ => ?_
  rw [val_main_v0_apply, left_index, right_index]
  rfl

end Cert.ReferenceIdeal.RefValue

end
-- ==== Proof.lean ====
/-
  The kernel computes the bias-free linear layer `y = x · Wᵀ` (`x` of 100000 rows by 128, `W` of 128 by 128) in
  seven row blocks of 16000, the last of which overhangs the array by 12000 rows; the reference transposes `W` and
  contracts `x`'s second axis with `Wᵀ`'s first. Over the extended reals both are
  `y[r, j] = Σ_k x[r, k] · W[j, k]`, term for term: no law beyond reading each side at an index is needed, and
  nothing depends on the inputs being finite.

  The one point of substance is the last block. Its fetch leaves the rows of `x`'s staging buffer past the array's
  end at values nothing names, and the body multiplies the whole buffer. Entry `(r, j)` of the product reads row `r`
  of the buffer only, and the write-back keeps only the rows that were fetched, so every kept entry is an entry of
  the linear layer whatever the other rows hold; the seven kept row ranges cover the array.

  The three frames: each kernel's from its body's triple with the staging windows forgotten (the argument arrays
  are only ever fetched, so they end as they began); the reference's from its run. The idealization rewrote
  nothing, so `preserves` has nothing to state.
-/
import proofs.«156530_g87866440942142_cont_sun_m_626_18_alg».proof.Defs
import proofs.«156530_g87866440942142_cont_sun_m_626_18_alg».proof.Proof.Gen.Kernel
import proofs.«156530_g87866440942142_cont_sun_m_626_18_alg».proof.Proof.Gen.KernelIdeal
import proofs.«156530_g87866440942142_cont_sun_m_626_18_alg».proof.Proof.Gen.ReferenceIdeal
import proofs.«156530_g87866440942142_cont_sun_m_626_18_alg».proof.Proof.Gen.Pre_finite_inputs
import proofs.«156530_g87866440942142_cont_sun_m_626_18_alg».proof.Proof.BitsFrame
import proofs.«156530_g87866440942142_cont_sun_m_626_18_alg».proof.Proof.IdealFrame
import proofs.«156530_g87866440942142_cont_sun_m_626_18_alg».proof.Proof.IdealValue
import proofs.«156530_g87866440942142_cont_sun_m_626_18_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves `x` and `W` unchanged. -/
theorem frame_kernel : Cert.frame_Kernel := fun m ρ _ => Cert.Kernel.Hand.frame_post (F := Bits) m ρ

/-- So does the idealized kernel. -/
theorem frame_kernel_ideal : Cert.frame_KernelIdeal := fun m ρ _ => Cert.KernelIdeal.Hand.frame_post (F := Ideal) m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `W`, both idealized programs end with the result at `linear x W`. -/
theorem algebraic : Cert.algebraic_KernelIdeal_ReferenceIdeal := by
  intro m ρ m' ρ' _ hagree
  refine ⟨fun c => Cert.KernelIdeal.Hand.result m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
